-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S200000x3 : Shape := ⟨2, ![200000, 3]⟩
abbrev S8x512x512x8 : Shape := ⟨4, ![8, 512, 512, 8]⟩
abbrev S8x512x512x8x3 : Shape := ⟨5, ![8, 512, 512, 8, 3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S200000x3 : S_.BroadcastsInDim S200000x3 (![] : Fin 0 → Fin S200000x3.rank)
  reducesTo_S200000x3_S_d0_1 : S200000x3.ReducesTo [0, 1] S_
  bcast_S_S8x512x512x8x3 : S_.BroadcastsInDim S8x512x512x8x3 (![] : Fin 0 → Fin S8x512x512x8x3.rank)
  reducesTo_S8x512x512x8x3_S_d0_1_2_3_4 : S8x512x512x8x3.ReducesTo [0, 1, 2, 3, 4] S_
  bcast_S_S8x512x512x8 : S_.BroadcastsInDim S8x512x512x8 (![] : Fin 0 → Fin S8x512x512x8.rank)
  reducesTo_S8x512x512x8_S_d0_1_2_3 : S8x512x512x8.ReducesTo [0, 1, 2, 3] S_

variable [Facts]

def fn_part1 {F : FTy → Type} [FloatOps F] (main_v13 : IVec S_ 1) (main_v15 : IVec S8x512x512x8 1) (main_c_5 : IVec S_ 1) : IVec S_ 1 :=
  let main_v16 : IVec S_ 1 := (fun x v => Host.reduce IntOp.andi x v reducesTo_S8x512x512x8_S_d0_1_2_3 h_S_) main_v15 main_c_5
  let main_v17 : IVec S_ 1 := andi main_v13 main_v16
  main_v17

def fn {F : FTy → Type} [FloatOps F] (main_arg0 : FVec F S100000x3 .f32) (main_arg1 : IVec S200000x3 32) (main_arg2 : FVec F S200000x3 .f32) (main_arg3 : IVec S8x512x512x8 32) (main_arg4 : FVec F S8x512x512x8x3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S200000x3 .f32 := Host.absf main_arg2
  let main_cst_0 : FVec F S_ .f32 := constant S_ .f32 0x7F800000#32
  let main_v5 : FVec F S200000x3 .f32 := broadcastInDim S200000x3 ![] bcast_S_S200000x3 main_cst_0
  let main_v6 : IVec S200000x3 1 := cmpf .olt main_v4 main_v5
  let main_c_1 : IVec S_ 1 := constantI S_ 1 1#1
  let main_v7 : IVec S_ 1 := (fun x v => Host.reduce IntOp.andi x v reducesTo_S200000x3_S_d0_1 h_S_) main_v6 main_c_1
  let main_v8 : IVec S_ 1 := andi main_v3 main_v7
  let main_v9 : FVec F S8x512x512x8x3 .f32 := Host.absf main_arg4
  let main_cst_2 : FVec F S_ .f32 := constant S_ .f32 0x7F800000#32
  let main_v10 : FVec F S8x512x512x8x3 .f32 := broadcastInDim S8x512x512x8x3 ![] bcast_S_S8x512x512x8x3 main_cst_2
  let main_v11 : IVec S8x512x512x8x3 1 := cmpf .olt main_v9 main_v10
  let main_c_3 : IVec S_ 1 := constantI S_ 1 1#1
  let main_v12 : IVec S_ 1 := (fun x v => Host.reduce IntOp.andi x v reducesTo_S8x512x512x8x3_S_d0_1_2_3_4 h_S_) main_v11 main_c_3
  let main_v13 : IVec S_ 1 := andi main_v8 main_v12
  let main_c_4 : IVec S_ 32 := constantI S_ 32 4294967295#32
  let main_v14 : IVec S8x512x512x8 32 := broadcastInDim S8x512x512x8 ![] bcast_S_S8x512x512x8 main_c_4
  let main_v15 : IVec S8x512x512x8 1 := cmpi .sge main_arg3 main_v14
  let main_c_5 : IVec S_ 1 := constantI S_ 1 1#1
  fn_part1 (F := F) main_v13 main_v15 main_c_5
-- ==== Kernel.lean ====
abbrev S100000x3 : Shape := ⟨2, ![100000, 3]⟩
abbrev S200000x3 : Shape := ⟨2, ![200000, 3]⟩
abbrev S8x512x512x8 : Shape := ⟨4, ![8, 512, 512, 8]⟩
abbrev S8x512x512x8x3 : Shape := ⟨5, ![8, 512, 512, 8, 3]⟩
abbrev S_ : Shape := ⟨0, ![]⟩
abbrev S200000x3x1 : Shape := ⟨3, ![200000, 3, 1]⟩
abbrev S200000x3x3 : Shape := ⟨3, ![200000, 3, 3]⟩
abbrev S8x512x512x8x1 : Shape := ⟨5, ![8, 512, 512, 8, 1]⟩
abbrev S8x512x512x1 : Shape := ⟨4, ![8, 512, 512, 1]⟩
abbrev S8x512x512 : Shape := ⟨3, ![8, 512, 512]⟩
abbrev S8x512x512x3 : Shape := ⟨4, ![8, 512, 512, 3]⟩
abbrev S8x512x512x1x3 : Shape := ⟨5, ![8, 512, 512, 1, 3]⟩
abbrev S8x512x1536 : Shape := ⟨3, ![8, 512, 1536]⟩
abbrev S1x128x1536 : Shape := ⟨3, ![1, 128, 1536]⟩
abbrev S1x128x512 : Shape := ⟨3, ![1, 128, 512]⟩
abbrev S8x512x512x4 : Shape := ⟨4, ![8, 512, 512, 4]⟩

abbrev nBuf : Space → Nat
  | .hbm => 60
  | .vmem => 10
  | .smem => 0
  | _ => 0

abbrev bufTy : (tb : Table) → Fin (tcTables nBuf tb) → BufTy
  | .hbm, ⟨0, _⟩ => ⟨S100000x3, .f32⟩
  | .hbm, ⟨1, _⟩ => ⟨S200000x3, .i32⟩
  | .hbm, ⟨2, _⟩ => ⟨S200000x3, .f32⟩
  | .hbm, ⟨3, _⟩ => ⟨S8x512x512x8, .i32⟩
  | .hbm, ⟨4, _⟩ => ⟨S8x512x512x8x3, .f32⟩
  | .hbm, ⟨5, _⟩ => ⟨S_, .i32⟩
  | .hbm, ⟨6, _⟩ => ⟨S200000x3, .i32⟩
  | .hbm, ⟨7, _⟩ => ⟨S200000x3, .i1⟩
  | .hbm, ⟨8, _⟩ => ⟨S_, .i32⟩
  | .hbm, ⟨9, _⟩ => ⟨S200000x3, .i32⟩
  | .hbm, ⟨10, _⟩ => ⟨S200000x3, .i32⟩
  | .hbm, ⟨11, _⟩ => ⟨S200000x3, .i32⟩
  | .hbm, ⟨12, _⟩ => ⟨S200000x3x1, .i32⟩
  | .hbm, ⟨13, _⟩ => ⟨S200000x3x3, .f32⟩
  | .hbm, ⟨14, _⟩ => ⟨S_, .f32⟩
  | .hbm, ⟨15, _⟩ => ⟨S200000x3, .f32⟩
  | .hbm, ⟨16, _⟩ => ⟨S_, .f32⟩
  | .hbm, ⟨17, _⟩ => ⟨S200000x3, .f32⟩
  | .hbm, ⟨18, _⟩ => ⟨S200000x3, .f32⟩
  | .hbm, ⟨19, _⟩ => ⟨S_, .i32⟩
  | .hbm, ⟨20, _⟩ => ⟨S8x512x512x8, .i32⟩
  | .hbm, ⟨21, _⟩ => ⟨S8x512x512x8, .i1⟩
  | .hbm, ⟨22, _⟩ => ⟨S_, .i32⟩
  | .hbm, ⟨23, _⟩ => ⟨S_, .i32⟩
  | .hbm, ⟨24, _⟩ => ⟨S8x512x512x8, .i32⟩
  | .hbm, ⟨25, _⟩ => ⟨S8x512x512x8, .i32⟩
  | .hbm, ⟨26, _⟩ => ⟨S8x512x512x8x1, .i1⟩
  | .hbm, ⟨27, _⟩ => ⟨S8x512x512x8x1, .i32⟩
  | .hbm, ⟨28, _⟩ => ⟨S8x512x512x8x3, .f32⟩
  | .hbm, ⟨29, _⟩ => ⟨S_, .f32⟩
  | .hbm, ⟨30, _⟩ => ⟨S_, .f32⟩
  | .hbm, ⟨31, _⟩ => ⟨S8x512x512x8x3, .i1⟩
  | .hbm, ⟨32, _⟩ => ⟨S8x512x512x8x3, .f32⟩
  | .hbm, ⟨33, _⟩ => ⟨S8x512x512x8x3, .f32⟩
  | .hbm, ⟨34, _⟩ => ⟨S8x512x512x8x1, .i1⟩
  | .hbm, ⟨35, _⟩ => ⟨S8x512x512x8x1, .i32⟩
  | .hbm, ⟨36, _⟩ => ⟨S8x512x512x8x3, .f32⟩
  | .hbm, ⟨37, _⟩ => ⟨S_, .f32⟩
  | .hbm, ⟨38, _⟩ => ⟨S_, .f32⟩
  | .hbm, ⟨39, _⟩ => ⟨S8x512x512x8x3, .i1⟩
  | .hbm, ⟨40, _⟩ => ⟨S8x512x512x8x3, .f32⟩
  | .hbm, ⟨41, _⟩ => ⟨S8x512x512x8x3, .f32⟩
  | .hbm, ⟨42, _⟩ => ⟨S8x512x512x1, .i32⟩
  | .hbm, ⟨43, _⟩ => ⟨S8x512x512, .i32⟩
  | .hbm, ⟨44, _⟩ => ⟨S_, .i32⟩
  | .hbm, ⟨45, _⟩ => ⟨S8x512x512, .i32⟩
  | .hbm, ⟨46, _⟩ => ⟨S8x512x512, .i1⟩
  | .hbm, ⟨47, _⟩ => ⟨S8x512x512, .i32⟩
  | .hbm, ⟨48, _⟩ => ⟨S8x512x512x1, .i1⟩
  | .hbm, ⟨49, _⟩ => ⟨S8x512x512x3, .i1⟩
  | .hbm, ⟨50, _⟩ => ⟨S8x512x512x3, .i32⟩
  | .hbm, ⟨51, _⟩ => ⟨S8x512x512x1x3, .f32⟩
  | .hbm, ⟨52, _⟩ => ⟨S8x512x512x3, .f32⟩
  | .hbm, ⟨53, _⟩ => ⟨S8x512x1536, .f32⟩
  | .hbm, ⟨54, _⟩ => ⟨S8x512x1536, .i32⟩
  | .hbm, ⟨55, _⟩ => ⟨S8x512x1536, .f32⟩
  | .hbm, ⟨56, _⟩ => ⟨S8x512x512, .f32⟩
  | .hbm, ⟨57, _⟩ => ⟨S8x512x512x3, .f32⟩
  | .hbm, ⟨58, _⟩ => ⟨S8x512x512x1, .f32⟩
  | .hbm, ⟨59, _⟩ => ⟨S8x512x512x4, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .i32⟩
  | .local _ .vmem, ⟨3, _⟩ => ⟨S1x128x1536, .i32⟩
  | .local _ .vmem, ⟨4, _⟩ => ⟨S1x128x512, .i32⟩
  | .local _ .vmem, ⟨5, _⟩ => ⟨S1x128x512, .i32⟩
  | .local _ .vmem, ⟨6, _⟩ => ⟨S1x128x1536, .f32⟩
  | .local _ .vmem, ⟨7, _⟩ => ⟨S1x128x1536, .f32⟩
  | .local _ .vmem, ⟨8, _⟩ => ⟨S1x128x512, .f32⟩
  | .local _ .vmem, ⟨9, _⟩ => ⟨S1x128x512, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_call1_v0 : Ref sig .tc := ⟨.hbm, 27, rfl⟩
abbrev main_v14 : Ref sig .tc := ⟨.hbm, 28, rfl⟩
abbrev main_cst_4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v15 : Ref sig .tc := ⟨.hbm, 33, rfl⟩
abbrev main_v16 : Ref sig .tc := ⟨.hbm, 34, rfl⟩
abbrev main_call3_v0 : Ref sig .tc := ⟨.hbm, 35, rfl⟩
abbrev main_v17 : Ref sig .tc := ⟨.hbm, 36, rfl⟩
abbrev main_cst_5 : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31_0 : Ref sig .tc := ⟨.hbm, 55, rfl⟩
abbrev main_v31_1 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S200000x3 : S_.BroadcastsInDim S200000x3 (![] : Fin 0 → Fin S200000x3.rank)
  bcast_S200000x3_S200000x3x1_0_1 : S200000x3.BroadcastsInDim S200000x3x1 (![0, 1] : Fin 2 → Fin S200000x3x1.rank)
  reducesTo_S200000x3x3_S200000x3_d1 : S200000x3x3.ReducesTo [1] S200000x3
  h_S_ : 0 < S_.numel
  bcast_S_S8x512x512x8 : S_.BroadcastsInDim S8x512x512x8 (![] : Fin 0 → Fin S8x512x512x8.rank)
  bcast_S8x512x512x8_S8x512x512x8x1_0_1_2_3 : S8x512x512x8.BroadcastsInDim S8x512x512x8x1 (![0, 1, 2, 3] : Fin 4 → Fin S8x512x512x8x1.rank)
  bcast_S8x512x512x8x1_S8x512x512x8x3_0_1_2_3_4 : S8x512x512x8x1.BroadcastsInDim S8x512x512x8x3 (![0, 1, 2, 3, 4] : Fin 5 → Fin S8x512x512x8x3.rank)
  bcast_S_S8x512x512x8x3 : S_.BroadcastsInDim S8x512x512x8x3 (![] : Fin 0 → Fin S8x512x512x8x3.rank)
  slices_S8x512x512x8_S8x512x512x1_0_0_0_0 : S8x512x512x8.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  natLt_1_32 : 1 < 32
  bcast_S8x512x512_S8x512x512x1_0_1_2 : S8x512x512.BroadcastsInDim S8x512x512x1 (![0, 1, 2] : Fin 3 → Fin S8x512x512x1.rank)
  bcast_S8x512x512x1_S8x512x512x3_0_1_2_3 : S8x512x512x1.BroadcastsInDim S8x512x512x3 (![0, 1, 2, 3] : Fin 4 → Fin S8x512x512x3.rank)
  slices_S8x512x512x8x3_S8x512x512x1x3_0_0_0_0_0 : S8x512x512x8x3.Slices ![0, 0, 0, 0, 0] S8x512x512x1x3
  shapeCasts_S8x512x512x1x3_S8x512x512x3 : S8x512x512x1x3.ShapeCasts S8x512x512x3
  shapeCasts_S8x512x512x3_S8x512x1536 : S8x512x512x3.ShapeCasts S8x512x1536
  inb_S1x128x1536_S1x128x1536_0_0_0 : ∀ a, (![0, 0, 0] : Fin 3 → Nat) a + S1x128x1536.size a ≤ S1x128x1536.size a
  h_S1x128x1536 : 0 < S1x128x1536.numel
  shapeCasts_S1x128x1536_S1x128x1536 : S1x128x1536.ShapeCasts S1x128x1536
  inb_S1x128x512_S1x128x512_0_0_0 : ∀ a, (![0, 0, 0] : Fin 3 → Nat) a + S1x128x512.size a ≤ S1x128x512.size a
  h_S1x128x512 : 0 < S1x128x512.numel
  shapeCasts_S1x128x512_S1x128x512 : S1x128x512.ShapeCasts S1x128x512
  shapeCasts_S8x512x1536_S8x512x512x3 : S8x512x1536.ShapeCasts S8x512x512x3
  concatenates_S8x512x512x3_S8x512x512x1_S8x512x512x4_d3 : Shape.Concatenates [S8x512x512x3, S8x512x512x1] S8x512x512x4 3
  gather_S100000x3_S200000x3x1_S200000x3x3_2_0_n_n_0_2_13_wf : GatherDims.WF S100000x3 S200000x3x1 S200000x3x3 [2] [0] [] [0] [] 2 ![1, 3]
  gather_S200000x3_S8x512x512x8x1_S8x512x512x8x3_4_0_n_n_0_4_13_wf : GatherDims.WF S200000x3 S8x512x512x8x1 S8x512x512x8x3 [4] [0] [] [0] [] 4 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1536.size a ≤ S8x512x1536.size a
  hwx0_0 : ∀ i : grid0.Coords, EltTy.bits .f32 = 32 ∨ (Rect.block (s := S8x512x1536) S1x128x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1536.size a ≤ S8x512x1536.size a
  hwx0_1 : ∀ i : grid0.Coords, EltTy.bits .i32 = 32 ∨ (Rect.block (s := S8x512x1536) S1x128x1536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x512x512.size a
  hwx0_2 : ∀ i : grid0.Coords, EltTy.bits .i32 = 32 ∨ (Rect.block (s := S8x512x512) S1x128x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1536.size a ≤ S8x512x1536.size a
  hwx0_3 : ∀ i : grid0.Coords, EltTy.bits .f32 = 32 ∨ (Rect.block (s := S8x512x1536) S1x128x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x512.size a ≤ S8x512x512.size a
  hwx0_4 : ∀ i : grid0.Coords, EltTy.bits .f32 = 32 ∨ (Rect.block (s := S8x512x512) S1x128x512.size (cc0_transform_4 i) (hinb0_4 i)).WholeWords (EltTy.packing .f32)

variable [Facts₀]

def gather_S100000x3_S200000x3x1_S200000x3x3_2_0_n_n_0_2_13 : GatherDims S100000x3 S200000x3x1 S200000x3x3 where
  offsetDims := [2]
  collapsedSliceDims := [0]
  operandBatchingDims := []
  startIndicesBatchingDims := []
  startIndexMap := [0]
  indexVectorDim := 2
  sliceSizes := ![1, 3]
  wf := gather_S100000x3_S200000x3x1_S200000x3x3_2_0_n_n_0_2_13_wf
def gather_S200000x3_S8x512x512x8x1_S8x512x512x8x3_4_0_n_n_0_4_13 : GatherDims S200000x3 S8x512x512x8x1 S8x512x512x8x3 where
  offsetDims := [4]
  collapsedSliceDims := [0]
  operandBatchingDims := []
  startIndicesBatchingDims := []
  startIndexMap := [0]
  indexVectorDim := 4
  sliceSizes := ![1, 3]
  wf := gather_S200000x3_S8x512x512x8x1_S8x512x512x8x3_4_0_n_n_0_4_13_wf

abbrev win0_0 : Pipeline.Window sig grid0 :=
  Pipeline.Window.ofSpec (Memref.whole main_v29) S1x128x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x128x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31_0) S1x128x1536.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_1) S1x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x3 : Shape := ⟨2, ![100000, 3]⟩
abbrev S200000x3 : Shape := ⟨2, ![200000, 3]⟩
abbrev S8x512x512x8 : Shape := ⟨4, ![8, 512, 512, 8]⟩
abbrev S8x512x512x8x3 : Shape := ⟨5, ![8, 512, 512, 8, 3]⟩
abbrev S_ : Shape := ⟨0, ![]⟩
abbrev S200000x3x1 : Shape := ⟨3, ![200000, 3, 1]⟩
abbrev S200000x3x3 : Shape := ⟨3, ![200000, 3, 3]⟩
abbrev S8x512x512x8x1 : Shape := ⟨5, ![8, 512, 512, 8, 1]⟩
abbrev S8x512x512x1 : Shape := ⟨4, ![8, 512, 512, 1]⟩
abbrev S8x512x512 : Shape := ⟨3, ![8, 512, 512]⟩
abbrev S3 : Shape := ⟨1, ![3]⟩
abbrev S8x512x512x1x3 : Shape := ⟨5, ![8, 512, 512, 1, 3]⟩
abbrev S8x512x512x3 : Shape := ⟨4, ![8, 512, 512, 3]⟩
abbrev S8x512x512x4 : Shape := ⟨4, ![8, 512, 512, 4]⟩

abbrev nBuf : Space → Nat
  | .hbm => 73
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S200000x3, .i32⟩
  | .hbm, ⟨2, _⟩ => ⟨S200000x3, .f32⟩
  | .hbm, ⟨3, _⟩ => ⟨S8x512x512x8, .i32⟩
  | .hbm, ⟨4, _⟩ => ⟨S8x512x512x8x3, .f32⟩
  | .hbm, ⟨5, _⟩ => ⟨S_, .i32⟩
  | .hbm, ⟨6, _⟩ => ⟨S200000x3, .i32⟩
  | .hbm, ⟨7, _⟩ => ⟨S200000x3, .i1⟩
  | .hbm, ⟨8, _⟩ => ⟨S_, .i32⟩
  | .hbm, ⟨9, _⟩ => ⟨S200000x3, .i32⟩
  | .hbm, ⟨10, _⟩ => ⟨S200000x3, .i32⟩
  | .hbm, ⟨11, _⟩ => ⟨S200000x3, .i32⟩
  | .hbm, ⟨12, _⟩ => ⟨S200000x3x1, .i32⟩
  | .hbm, ⟨13, _⟩ => ⟨S200000x3x3, .f32⟩
  | .hbm, ⟨14, _⟩ => ⟨S_, .f32⟩
  | .hbm, ⟨15, _⟩ => ⟨S200000x3, .f32⟩
  | .hbm, ⟨16, _⟩ => ⟨S_, .f32⟩
  | .hbm, ⟨17, _⟩ => ⟨S200000x3, .f32⟩
  | .hbm, ⟨18, _⟩ => ⟨S200000x3, .f32⟩
  | .hbm, ⟨19, _⟩ => ⟨S_, .i32⟩
  | .hbm, ⟨20, _⟩ => ⟨S8x512x512x8, .i32⟩
  | .hbm, ⟨21, _⟩ => ⟨S8x512x512x8, .i1⟩
  | .hbm, ⟨22, _⟩ => ⟨S_, .i32⟩
  | .hbm, ⟨23, _⟩ => ⟨S_, .i32⟩
  | .hbm, ⟨24, _⟩ => ⟨S8x512x512x8, .i32⟩
  | .hbm, ⟨25, _⟩ => ⟨S8x512x512x8, .i32⟩
  | .hbm, ⟨26, _⟩ => ⟨S8x512x512x8x1, .i1⟩
  | .hbm, ⟨27, _⟩ => ⟨S_, .i32⟩
  | .hbm, ⟨28, _⟩ => ⟨S8x512x512x8, .i32⟩
  | .hbm, ⟨29, _⟩ => ⟨S8x512x512x8, .i1⟩
  | .hbm, ⟨30, _⟩ => ⟨S_, .i32⟩
  | .hbm, ⟨31, _⟩ => ⟨S8x512x512x8, .i32⟩
  | .hbm, ⟨32, _⟩ => ⟨S8x512x512x8, .i32⟩
  | .hbm, ⟨33, _⟩ => ⟨S8x512x512x8, .i32⟩
  | .hbm, ⟨34, _⟩ => ⟨S8x512x512x8x1, .i32⟩
  | .hbm, ⟨35, _⟩ => ⟨S8x512x512x8x3, .f32⟩
  | .hbm, ⟨36, _⟩ => ⟨S_, .f32⟩
  | .hbm, ⟨37, _⟩ => ⟨S_, .f32⟩
  | .hbm, ⟨38, _⟩ => ⟨S8x512x512x8x3, .i1⟩
  | .hbm, ⟨39, _⟩ => ⟨S8x512x512x8x3, .f32⟩
  | .hbm, ⟨40, _⟩ => ⟨S8x512x512x8x3, .f32⟩
  | .hbm, ⟨41, _⟩ => ⟨S8x512x512x8x1, .i1⟩
  | .hbm, ⟨42, _⟩ => ⟨S_, .i32⟩
  | .hbm, ⟨43, _⟩ => ⟨S8x512x512x8, .i32⟩
  | .hbm, ⟨44, _⟩ => ⟨S8x512x512x8, .i1⟩
  | .hbm, ⟨45, _⟩ => ⟨S_, .i32⟩
  | .hbm, ⟨46, _⟩ => ⟨S8x512x512x8, .i32⟩
  | .hbm, ⟨47, _⟩ => ⟨S8x512x512x8, .i32⟩
  | .hbm, ⟨48, _⟩ => ⟨S8x512x512x8, .i32⟩
  | .hbm, ⟨49, _⟩ => ⟨S8x512x512x8x1, .i32⟩
  | .hbm, ⟨50, _⟩ => ⟨S8x512x512x8x3, .f32⟩
  | .hbm, ⟨51, _⟩ => ⟨S_, .f32⟩
  | .hbm, ⟨52, _⟩ => ⟨S_, .f32⟩
  | .hbm, ⟨53, _⟩ => ⟨S8x512x512x8x3, .i1⟩
  | .hbm, ⟨54, _⟩ => ⟨S8x512x512x8x3, .f32⟩
  | .hbm, ⟨55, _⟩ => ⟨S8x512x512x8x3, .f32⟩
  | .hbm, ⟨56, _⟩ => ⟨S8x512x512x1, .i32⟩
  | .hbm, ⟨57, _⟩ => ⟨S8x512x512, .i32⟩
  | .hbm, ⟨58, _⟩ => ⟨S_, .i32⟩
  | .hbm, ⟨59, _⟩ => ⟨S8x512x512, .i32⟩
  | .hbm, ⟨60, _⟩ => ⟨S8x512x512, .i1⟩
  | .hbm, ⟨61, _⟩ => ⟨S_, .f32⟩
  | .hbm, ⟨62, _⟩ => ⟨S3, .f32⟩
  | .hbm, ⟨63, _⟩ => ⟨S8x512x512x1, .i1⟩
  | .hbm, ⟨64, _⟩ => ⟨S8x512x512x1x3, .f32⟩
  | .hbm, ⟨65, _⟩ => ⟨S8x512x512x3, .f32⟩
  | .hbm, ⟨66, _⟩ => ⟨S8x512x512x3, .i1⟩
  | .hbm, ⟨67, _⟩ => ⟨S8x512x512x3, .f32⟩
  | .hbm, ⟨68, _⟩ => ⟨S8x512x512x3, .f32⟩
  | .hbm, ⟨69, _⟩ => ⟨S8x512x512, .i1⟩
  | .hbm, ⟨70, _⟩ => ⟨S8x512x512, .f32⟩
  | .hbm, ⟨71, _⟩ => ⟨S8x512x512x1, .f32⟩
  | .hbm, ⟨72, _⟩ => ⟨S8x512x512x4, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_10 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call3_v0 : Ref sig .tc := ⟨.hbm, 66, rfl⟩
abbrev main_call3_v1 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  bcast_S_S200000x3 : S_.BroadcastsInDim S200000x3 (![] : Fin 0 → Fin S200000x3.rank)
  bcast_S200000x3_S200000x3x1_0_1 : S200000x3.BroadcastsInDim S200000x3x1 (![0, 1] : Fin 2 → Fin S200000x3x1.rank)
  reducesTo_S200000x3x3_S200000x3_d1 : S200000x3x3.ReducesTo [1] S200000x3
  h_S_ : 0 < S_.numel
  bcast_S_S8x512x512x8 : S_.BroadcastsInDim S8x512x512x8 (![] : Fin 0 → Fin S8x512x512x8.rank)
  bcast_S8x512x512x8_S8x512x512x8x1_0_1_2_3 : S8x512x512x8.BroadcastsInDim S8x512x512x8x1 (![0, 1, 2, 3] : Fin 4 → Fin S8x512x512x8x1.rank)
  bcast_S8x512x512x8x1_S8x512x512x8x3_0_1_2_3_4 : S8x512x512x8x1.BroadcastsInDim S8x512x512x8x3 (![0, 1, 2, 3, 4] : Fin 5 → Fin S8x512x512x8x3.rank)
  bcast_S_S8x512x512x8x3 : S_.BroadcastsInDim S8x512x512x8x3 (![] : Fin 0 → Fin S8x512x512x8x3.rank)
  slices_S8x512x512x8_S8x512x512x1_0_0_0_0 : S8x512x512x8.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  bcast_S_S3 : S_.BroadcastsInDim S3 (![] : Fin 0 → Fin S3.rank)
  bcast_S8x512x512_S8x512x512x1_0_1_2 : S8x512x512.BroadcastsInDim S8x512x512x1 (![0, 1, 2] : Fin 3 → Fin S8x512x512x1.rank)
  slices_S8x512x512x8x3_S8x512x512x1x3_0_0_0_0_0 : S8x512x512x8x3.Slices ![0, 0, 0, 0, 0] S8x512x512x1x3
  shapeCasts_S8x512x512x1x3_S8x512x512x3 : S8x512x512x1x3.ShapeCasts S8x512x512x3
  bcast_S8x512x512x1_S8x512x512x3_0_1_2_3 : S8x512x512x1.BroadcastsInDim S8x512x512x3 (![0, 1, 2, 3] : Fin 4 → Fin S8x512x512x3.rank)
  bcast_S3_S8x512x512x3_3 : S3.BroadcastsInDim S8x512x512x3 (![3] : Fin 1 → Fin S8x512x512x3.rank)
  concatenates_S8x512x512x3_S8x512x512x1_S8x512x512x4_d3 : Shape.Concatenates [S8x512x512x3, S8x512x512x1] S8x512x512x4 3
  gather_S100000x3_S200000x3x1_S200000x3x3_2_0_n_n_0_2_13_wf : GatherDims.WF S100000x3 S200000x3x1 S200000x3x3 [2] [0] [] [0] [] 2 ![1, 3]
  gather_S200000x3_S8x512x512x8x1_S8x512x512x8x3_4_0_n_n_0_4_13_wf : GatherDims.WF S200000x3 S8x512x512x8x1 S8x512x512x8x3 [4] [0] [] [0] [] 4 ![1, 3]

variable [Facts₀]

def gather_S100000x3_S200000x3x1_S200000x3x3_2_0_n_n_0_2_13 : GatherDims S100000x3 S200000x3x1 S200000x3x3 where
  offsetDims := [2]
  collapsedSliceDims := [0]
  operandBatchingDims := []
  startIndicesBatchingDims := []
  startIndexMap := [0]
  indexVectorDim := 2
  sliceSizes := ![1, 3]
  wf := gather_S100000x3_S200000x3x1_S200000x3x3_2_0_n_n_0_2_13_wf
def gather_S200000x3_S8x512x512x8x1_S8x512x512x8x3_4_0_n_n_0_4_13 : GatherDims S200000x3 S8x512x512x8x1 S8x512x512x8x3 where
  offsetDims := [4]
  collapsedSliceDims := [0]
  operandBatchingDims := []
  startIndicesBatchingDims := []
  startIndexMap := [0]
  indexVectorDim := 4
  sliceSizes := ![1, 3]
  wf := gather_S200000x3_S8x512x512x8x1_S8x512x512x8x3_4_0_n_n_0_4_13_wf

class Facts : Prop extends Facts₀ where

variable [Facts]
-- ==== Proof.FaceRange.lean ====
/-
  What the precondition says about the per-pixel face numbers.

  The precondition is a conjunction of four "all entries satisfy …" tests; the last one says that every
  entry of the face-number array is at least -1 as a signed number (-1 marks a pixel slot no face covers).
  A conjunction of one-bit words is 1 only if each is 1, and an "all" over an array (a reduction by
  "and" starting from 1) is 1 only if every entry is 1; the entry of the last test at position `i` is the
  signed comparison "-1 ≤ entry i".
-/
import proofs.«408880_j81793357185200_4_alg».proof.Pre_finite_inputs
import proofs.«408880_j81793357185200_4_alg».proof.Proof.Gen.Pre_finite_inputs
import Idealize.ShloMosaic.Lib.ReduceAll

noncomputable section

namespace Cert.Blend

open Idealize.ShloMosaic Cert.Pre_finite_inputs

instance : Subsingleton S_.Idx := ⟨fun _ _ => funext fun d => d.elim0⟩

/-- Under the precondition every face number is at least -1 (as a signed 32-bit number). -/
theorem face_ge_neg_one {F : FTy → Type} [FloatOps F] (verts : FVec F S100000x3 .f32) (faces : IVec S200000x3 32)
    (normals : FVec F S200000x3 .f32) (pixFace : IVec S8x512x512x8 32) (texels : FVec F S8x512x512x8x3 .f32)
    (h : Cert.Pre_finite_inputs.fn (F := F) verts faces normals pixFace texels = fun _ => 1#1) (i : S8x512x512x8.Idx) :
    (4294967295#32 : BitVec 32).toInt ≤ (pixFace i).toInt := by
  have h0 := congrFun h (fun d => d.elim0)
  dsimp only [fn, fn_part1] at h0
  obtain ⟨-, hall⟩ := IntOp.andi_eq_one.1 h0
  have hi := Host.reduce_andi_all _ _ _ _ _ hall i
  exact IntOp.cmpi_sge.1 hi

end Cert.Blend

end
-- ==== Proof.RegionArrays.lean ====
/-
  The two arrays the blend region writes, after all 32 grid points have run.

  The grid is 8 images × 4 bands of 128 rows.  At point (n, h) the region reads band h of image n of the
  flattened texel array (512 × 1536 per image: 512 pixels × 3 channels per row), of the widened background
  flag in the same layout, and of the widened per-pixel flag (512 × 512 per image), and writes the same band of
  the colour array and of the opacity array.  The body is entry by entry:
      colour  = 1 where the flag word is not zero, the texel elsewhere;
      opacity = 0 where the flag word is not zero, 1 elsewhere.
  Every input band sits at the same place as the output band, and the 32 bands tile each array, so after the
  region each output array is that entrywise function of the whole input arrays.
-/
import proofs.«408880_j81793357185200_4_alg».proof.Proof.Gen.KernelIdeal.Frame
import Idealize.ShloMosaic.Lib.Pipeline.Value

set_option maxRecDepth 16384

noncomputable section

namespace Cert.KernelIdeal.Blend

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin3 : (![0, 0, 0] : Fin 3 → Nat) = fun _ => 0 := funext fun a => by fin_cases a <;> rfl

/-! ## The colour array (output window 3) -/

/-- The colour of one entry: white (1) where the widened background flag is set, the texel elsewhere. -/
abbrev colour (flag : S8x512x1536.Idx → Elt F .i32) (texel : S8x512x1536.Idx → Elt F .f32) : S8x512x1536.Idx → Elt F .f32 :=
  fun i => Scalar.select (IntOp.cmpi .ne (flag i) 0#32) (FloatOps.ofBits .f32 0x3F800000#32) (texel i)

/-- The body's stored value for the colour band is that choice, entry by entry, of the two loaded bands. -/
theorem colour_band (x1 : Vec F S1x128x1536 .i32) (x0 : Vec F S1x128x1536 .f32) :
    k0_pay1 x1 x0 = fun j => Scalar.select (IntOp.cmpi .ne (x1 j) 0#32) (FloatOps.ofBits .f32 0x3F800000#32) (x0 j) := by
  unfold k0_pay1
  simp only [shapeCast_self]
  rfl

/-- At every grid point the texel band and the flag band are the band the colour output writes. -/
theorem bands3 : ∀ t : Fin cfg0.N, win0_0.index t (0 : Fin 3) = win0_3.index t (0 : Fin 3)
    ∧ win0_0.index t (1 : Fin 3) = win0_3.index t (1 : Fin 3)
    ∧ win0_0.index t (2 : Fin 3) = win0_3.index t (2 : Fin 3)
    ∧ win0_1.index t (0 : Fin 3) = win0_3.index t (0 : Fin 3)
    ∧ win0_1.index t (1 : Fin 3) = win0_3.index t (1 : Fin 3)
    ∧ win0_1.index t (2 : Fin 3) = win0_3.index t (2 : Fin 3) :=
  (by decide +kernel : ∀ t : Fin grid0.N, _)

/-- Every (image, band) pair is some grid point's. -/
theorem every_band3 : ∀ (n : Fin 8) (h : Fin 4), ∃ t : Fin cfg0.N, win0_3.index t = ![n.val, h.val, 0] :=
  (by decide +kernel : ∀ (n : Fin 8) (h : Fin 4), ∃ t : Fin grid0.N, win0_3.index t = ![n.val, h.val, 0])

/-- For ANY flag and texel arrays: choosing entry by entry between 1 and the texel on the bands point `t` reads
    is band `t` of the entrywise colour of the whole arrays (the three bands sit at the same place). -/
theorem colour_block (flag : S8x512x1536.Idx → Elt F .i32) (texel : S8x512x1536.Idx → Elt F .f32) (t : Fin cfg0.N) :
    (cfg0.win 3).cut (grid0.coords t) (fun j => Scalar.select (IntOp.cmpi .ne (((cfg0.win 1).blk t).view.read (Elt F) flag j) 0#32) (FloatOps.ofBits .f32 0x3F800000#32) (((cfg0.win 0).blk t).view.read (Elt F) texel j))
      = ((cfg0.win 3).blk t).view.read (Elt F) (colour flag texel) := by
  obtain ⟨e0, e1, e2, e3, e4, e5⟩ := bands3 t
  funext j
  show Scalar.select (IntOp.cmpi .ne (flag (((cfg0.win 1).blk t).view.emb j)) 0#32) (FloatOps.ofBits .f32 0x3F800000#32) (texel (((cfg0.win 0).blk t).view.emb j))
    = Scalar.select (IntOp.cmpi .ne (flag (((cfg0.win 3).blk t).view.emb j)) 0#32) (FloatOps.ofBits .f32 0x3F800000#32) (texel (((cfg0.win 3).blk t).view.emb j))
  have h0 : ((cfg0.win 0).blk t).view.emb j = ((cfg0.win 3).blk t).view.emb j := by
    funext a; apply Fin.ext
    match a with
    | ⟨0, _⟩ => show win0_0.index t (0 : Fin 3) * 1 + 1 * (j 0).val = win0_3.index t (0 : Fin 3) * 1 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 1536 + 1 * (j 2).val = win0_3.index t (2 : Fin 3) * 1536 + 1 * (j 2).val; omega
  have h1 : ((cfg0.win 1).blk t).view.emb j = ((cfg0.win 3).blk t).view.emb j := by
    funext a; apply Fin.ext
    match a with
    | ⟨0, _⟩ => show win0_1.index t (0 : Fin 3) * 1 + 1 * (j 0).val = win0_3.index t (0 : Fin 3) * 1 + 1 * (j 0).val; omega
    | ⟨1, _⟩ => show win0_1.index t (1 : Fin 3) * 128 + 1 * (j 1).val = win0_3.index t (1 : Fin 3) * 128 + 1 * (j 1).val; omega
    | ⟨2, _⟩ => show win0_1.index t (2 : Fin 3) * 1536 + 1 * (j 2).val = win0_3.index t (2 : Fin 3) * 1536 + 1 * (j 2).val; omega
  rw [h0, h1]

/-- What grid point `t` writes back is band `t` of the entrywise colour of the arrays the region finds
    (the flag array is the one window 1 stages, the texel array the one window 0 stages). -/
theorem colour_written (c : Dev nD) (t : Fin cfg0.N) :
    (dats m 0 c).flushed 3 t = ((cfg0.win 3).blk t).view.read (Elt F)
      (colour (V m c (Pipeline.arrRef spec0 1)) (V m c (Pipeline.arrRef spec0 0))) := by
  show (cfg0.win 3).cut (grid0.coords t) ((dats m 0 c).after 3 t) = _
  rw [after0_3]
  unfold out0_3
  rw [View.canon_unit_zero origin3]
  simp only [View.ld_unit_zero (S := S1x128x1536) origin3]
  rw [colour_band (iblk m c 1 t) (iblk m c 0 t)]
  unfold iblk
  exact colour_block (V m c (Pipeline.arrRef spec0 1)) (V m c (Pipeline.arrRef spec0 0)) t

/-- An index lies in grid point `t`'s band iff each coordinate is in the band's range. -/
theorem mem_band3 (t : Fin cfg0.N) (i : S8x512x1536.Idx) :
    i ∈ ((cfg0.win 3).blk t).view.set ↔ ∀ a : Fin 3, win0_3.index t a * S1x128x1536.size a ≤ (i a).val ∧ (i a).val < win0_3.index t a * S1x128x1536.size a + S1x128x1536.size a := by
  show i ∈ ((View.whole main_v31_0).slice (win0_3.rect t)).set ↔ _
  rw [View.set_slice_whole, Rect.mem_set_unit]
  exact Iff.rfl

/-- The bands tile the colour array: row r of image n is in band r / 128 of image n. -/
theorem tiled3 (i : S8x512x1536.Idx) :
    ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 1536 := (i 2).isLt
  obtain ⟨t, ht⟩ := every_band3 ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_band3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1536 ≤ (i 2).val ∧ (i 2).val < win0_3.index t (2 : Fin 3) * 1536 + 1536; omega

/-- THE COLOUR ARRAY after the region: the entrywise colour of the flag and texel arrays the region finds. -/
theorem colour_array (c : Dev nD) :
    (dats m 0 c).arrAt 3 cfg0.N = colour (V m c (Pipeline.arrRef spec0 1)) (V m c (Pipeline.arrRef spec0 0)) :=
  (dats m 0 c).arrAt_eq_of_cover 3 _ (fun t _ => colour_written m c t) tiled3

/-! ## The opacity array (output window 4) -/

/-- The opacity of one entry: 0 where the widened background flag is set, 1 elsewhere. -/
abbrev opacity (flag : S8x512x512.Idx → Elt F .i32) : S8x512x512.Idx → Elt F .f32 :=
  fun i => Scalar.select (IntOp.cmpi .ne (flag i) 0#32) (FloatOps.ofBits .f32 0x00000000#32) (FloatOps.ofBits .f32 0x3F800000#32)

theorem opacity_band (x2 : Vec F S1x128x512 .i32) :
    k0_pay2 x2 = fun j => Scalar.select (IntOp.cmpi .ne (x2 j) 0#32) (FloatOps.ofBits .f32 0x00000000#32) (FloatOps.ofBits .f32 0x3F800000#32) := by
  unfold k0_pay2
  simp only [shapeCast_self]
  rfl

theorem bands4 : ∀ t : Fin cfg0.N, win0_2.index t (0 : Fin 3) = win0_4.index t (0 : Fin 3)
    ∧ win0_2.index t (1 : Fin 3) = win0_4.index t (1 : Fin 3)
    ∧ win0_2.index t (2 : Fin 3) = win0_4.index t (2 : Fin 3) :=
  (by decide +kernel : ∀ t : Fin grid0.N, _)

theorem every_band4 : ∀ (n : Fin 8) (h : Fin 4), ∃ t : Fin cfg0.N, win0_4.index t = ![n.val, h.val, 0] :=
  (by decide +kernel : ∀ (n : Fin 8) (h : Fin 4), ∃ t : Fin grid0.N, win0_4.index t = ![n.val, h.val, 0])

/-- For ANY flag array: choosing entry by entry between 0 and 1 on the band point `t` reads is band `t` of the
    entrywise opacity of the whole array. -/
theorem opacity_block (flag : S8x512x512.Idx → Elt F .i32) (t : Fin cfg0.N) :
    (cfg0.win 4).cut (grid0.coords t) (fun j => Scalar.select (IntOp.cmpi .ne (((cfg0.win 2).blk t).view.read (Elt F) flag j) 0#32) (FloatOps.ofBits .f32 0x00000000#32) (FloatOps.ofBits .f32 0x3F800000#32))
      = ((cfg0.win 4).blk t).view.read (Elt F) (opacity flag) := by
  obtain ⟨e0, e1, e2⟩ := bands4 t
  funext j
  show Scalar.select (IntOp.cmpi .ne (flag (((cfg0.win 2).blk t).view.emb j)) 0#32) (FloatOps.ofBits .f32 0x00000000#32) (FloatOps.ofBits .f32 0x3F800000#32)
    = Scalar.select (IntOp.cmpi .ne (flag (((cfg0.win 4).blk t).view.emb j)) 0#32) (FloatOps.ofBits .f32 0x00000000#32) (FloatOps.ofBits .f32 0x3F800000#32)
  have h2 : ((cfg0.win 2).blk t).view.emb j = ((cfg0.win 4).blk t).view.emb j := by
    funext a; apply Fin.ext
    match a with
    | ⟨0, _⟩ => show win0_2.index t (0 : Fin 3) * 1 + 1 * (j 0).val = win0_4.index t (0 : Fin 3) * 1 + 1 * (j 0).val; omega
    | ⟨1, _⟩ => show win0_2.index t (1 : Fin 3) * 128 + 1 * (j 1).val = win0_4.index t (1 : Fin 3) * 128 + 1 * (j 1).val; omega
    | ⟨2, _⟩ => show win0_2.index t (2 : Fin 3) * 512 + 1 * (j 2).val = win0_4.index t (2 : Fin 3) * 512 + 1 * (j 2).val; omega
  rw [h2]

/-- What grid point `t` writes back is band `t` of the entrywise opacity of the flag array the region finds
    (the one window 2 stages). -/
theorem opacity_written (c : Dev nD) (t : Fin cfg0.N) :
    (dats m 0 c).flushed 4 t = ((cfg0.win 4).blk t).view.read (Elt F) (opacity (V m c (Pipeline.arrRef spec0 2))) := by
  show (cfg0.win 4).cut (grid0.coords t) ((dats m 0 c).after 4 t) = _
  rw [after0_4]
  unfold out0_4
  rw [View.canon_unit_zero origin3]
  simp only [View.ld_unit_zero (S := S1x128x512) origin3]
  rw [opacity_band (iblk m c 2 t)]
  unfold iblk
  exact opacity_block (V m c (Pipeline.arrRef spec0 2)) t

theorem mem_band4 (t : Fin cfg0.N) (i : S8x512x512.Idx) :
    i ∈ ((cfg0.win 4).blk t).view.set ↔ ∀ a : Fin 3, win0_4.index t a * S1x128x512.size a ≤ (i a).val ∧ (i a).val < win0_4.index t a * S1x128x512.size a + S1x128x512.size a := by
  show i ∈ ((View.whole main_v31_1).slice (win0_4.rect t)).set ↔ _
  rw [View.set_slice_whole, Rect.mem_set_unit]
  exact Iff.rfl

/-- The bands tile the opacity array. -/
theorem tiled4 (i : S8x512x512.Idx) :
    ∃ t : Fin cfg0.N, (cfg0.win 4).flush t = true ∧ i ∈ ((cfg0.win 4).blk t).view.set := by
  have hi0 : (i 0).val < 8 := (i 0).isLt
  have hi1 : (i 1).val < 512 := (i 1).isLt
  have hi2 : (i 2).val < 512 := (i 2).isLt
  obtain ⟨t, ht⟩ := every_band4 ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_band4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 512 ≤ (i 2).val ∧ (i 2).val < win0_4.index t (2 : Fin 3) * 512 + 512; omega

/-- THE OPACITY ARRAY after the region: the entrywise opacity of the flag array the region finds. -/
theorem opacity_array (c : Dev nD) : (dats m 0 c).arrAt 4 cfg0.N = opacity (V m c (Pipeline.arrRef spec0 2)) :=
  (dats m 0 c).arrAt_eq_of_cover 4 _ (fun t _ => opacity_written m c t) tiled4

end Cert.KernelIdeal.Blend

end
-- ==== Proof.KernelRun.lean ====
/-
  The idealized kernel's run, read back: what each of its three results holds, as a function of the arguments.

  Before the blend region the program computes, on the host:
    * the centroid of every face (the mean of its three vertices) and, for every pixel slot, the centroid and the
      normal of the face the slot names, 0 where the slot holds the padding value -1 — results two and three;
      they are finished before the region starts and nothing after touches them;
    * per pixel the background flag "the first slot's face number is negative", widened to 32 bits, once per pixel
      (512 × 512 per image) and once per pixel and channel, flattened to 512 × 1536; and the first slot's texel,
      flattened the same way.  These three are the arrays the region reads.
  After the region the colour array is given back its (pixel, channel) shape, the opacity a last axis of length 1,
  and the two are joined along the last axis: result one.
-/
import proofs.«408880_j81793357185200_4_alg».proof.Proof.RegionArrays
import Idealize.ShloMosaic.Lib.StableHlo.Run

set_option maxRecDepth 16384

noncomputable section

namespace Cert.KernelIdeal.Blend

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The host values as functions of the arguments -/

/-- Per pixel: the first slot's face number is negative. -/
def isBackground (pixFace : IVec S8x512x512x8 32) : IVec S8x512x512 1 :=
  cmpi .slt (shapeCast S8x512x512 (extractStridedSlice S8x512x512x1 ![0, 0, 0, 0] pixFace slices_S8x512x512x8_S8x512x512x1_0_0_0_0) shapeCasts_S8x512x512x1_S8x512x512)
    (broadcastInDim S8x512x512 ![] bcast_S_S8x512x512 (constantI S_ 32 0#32))

/-- Per pixel and channel: the first slot's texel. -/
def firstTexel (texels : FVec F S8x512x512x8x3 .f32) : FVec F S8x512x512x3 .f32 :=
  shapeCast S8x512x512x3 (extractStridedSlice S8x512x512x1x3 ![0, 0, 0, 0, 0] texels slices_S8x512x512x8x3_S8x512x512x1x3_0_0_0_0_0) shapeCasts_S8x512x512x1x3_S8x512x512x3

/-- The background flag repeated over the three channels. -/
def isBackground3 (pixFace : IVec S8x512x512x8 32) : IVec S8x512x512x3 1 :=
  broadcastInDim S8x512x512x3 ![0, 1, 2, 3] bcast_S8x512x512x1_S8x512x512x3_0_1_2_3
    (broadcastInDim S8x512x512x1 ![0, 1, 2] bcast_S8x512x512_S8x512x512x1_0_1_2 (isBackground pixFace))

/-- A slot's face number with the padding value -1 replaced by 0. -/
def safeIndex (pixFace : IVec S8x512x512x8 32) : IVec S8x512x512x8 32 :=
  select (cmpi .eq pixFace (broadcastInDim S8x512x512x8 ![] bcast_S_S8x512x512x8 (constantI S_ 32 4294967295#32)))
    (broadcastInDim S8x512x512x8 ![] bcast_S_S8x512x512x8 (constantI S_ 32 0#32)) pixFace

/-- For every pixel slot the row of a per-face table the slot names (the row number clamped into the table), and
    0 where the slot holds -1. -/
def maskedRows (table : FVec F S200000x3 .f32) (pixFace : IVec S8x512x512x8 32) : FVec F S8x512x512x8x3 .f32 :=
  select
    (broadcastInDim S8x512x512x8x3 ![0, 1, 2, 3, 4] bcast_S8x512x512x8x1_S8x512x512x8x3_0_1_2_3_4
      (broadcastInDim S8x512x512x8x1 ![0, 1, 2, 3] bcast_S8x512x512x8_S8x512x512x8x1_0_1_2_3
        (cmpi .eq pixFace (broadcastInDim S8x512x512x8 ![] bcast_S_S8x512x512x8 (constantI S_ 32 4294967295#32)))))
    (broadcastInDim S8x512x512x8x3 ![] bcast_S_S8x512x512x8x3 (constant (F := F) S_ .f32 0x00000000#32))
    (Host.gather gather_S200000x3_S8x512x512x8x1_S8x512x512x8x3_4_0_n_n_0_4_13 table
      (broadcastInDim S8x512x512x8x1 ![0, 1, 2, 3] bcast_S8x512x512x8_S8x512x512x8x1_0_1_2_3 (safeIndex pixFace)))

/-- The centroid of every face: the sum of its three vertices (a negative vertex number counting from the end),
    divided by 3. -/
def centroids (verts : FVec F S100000x3 .f32) (faces : IVec S200000x3 32) : FVec F S200000x3 .f32 :=
  Host.divf
    (Host.reduceAdd
      (Host.gather gather_S100000x3_S200000x3x1_S200000x3x3_2_0_n_n_0_2_13 verts
        (broadcastInDim S200000x3x1 ![0, 1] bcast_S200000x3_S200000x3x1_0_1
          (select (cmpi .slt faces (broadcastInDim S200000x3 ![] bcast_S_S200000x3 (constantI S_ 32 0#32)))
            (addi faces (broadcastInDim S200000x3 ![] bcast_S_S200000x3 (constantI S_ 32 100000#32))) faces)))
      (constant (F := F) S_ .f32 0x00000000#32) reducesTo_S200000x3x3_S200000x3_d1 h_S_)
    (broadcastInDim S200000x3 ![] bcast_S_S200000x3 (constant (F := F) S_ .f32 0x40400000#32))

set_option maxHeartbeats 8000000 in
/-- The flag array the region reads per (pixel, channel): the background flag widened, flattened to 512 × 1536. -/
theorem flag3_value (c : Dev nD) : V m c (Pipeline.arrRef spec0 1)
    = shapeCast S8x512x1536 (extui 32 (isBackground3 (m ((c : Thread nD τ).loc main_arg3))) natLt_1_32) shapeCasts_S8x512x512x3_S8x512x1536 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  show StableHlo.after _ _ (Proc.devRef .tc main_v30) = _
  after_results_simp
  rfl

set_option maxHeartbeats 8000000 in
/-- The texel array the region reads: the first slot's texel, flattened to 512 × 1536. -/
theorem texel_value (c : Dev nD) : V m c (Pipeline.arrRef spec0 0)
    = shapeCast S8x512x1536 (firstTexel (m ((c : Thread nD τ).loc main_arg4))) shapeCasts_S8x512x512x3_S8x512x1536 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  show StableHlo.after _ _ (Proc.devRef .tc main_v29) = _
  after_results_simp
  rfl

set_option maxHeartbeats 8000000 in
/-- The flag array the region reads per pixel: the background flag widened. -/
theorem flag1_value (c : Dev nD) : V m c (Pipeline.arrRef spec0 2)
    = extui 32 (isBackground (m ((c : Thread nD τ).loc main_arg3))) natLt_1_32 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  show StableHlo.after _ _ (Proc.devRef .tc main_v23) = _
  after_results_simp
  rfl

set_option maxHeartbeats 16000000 in
/-- Result two as the region finds it: the masked centroid of every pixel slot's face. -/
theorem coords_value (c : Dev nD) : V m c main_v15
    = maskedRows (centroids (m ((c : Thread nD τ).loc main_arg0)) (m ((c : Thread nD τ).loc main_arg1))) (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 16000000 in
/-- Result three as the region finds it: the masked normal of every pixel slot's face. -/
theorem normals_value (c : Dev nD) : V m c main_v18
    = maskedRows (m ((c : Thread nD τ).loc main_arg2)) (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

/-! ## After the region -/

/-- The lines after the region leave results two and three as the region found them: they write other buffers, and
    the region's arrays are other buffers too. -/
theorem coords_kept (c : Dev nD) : Pipeline.afterTail₀ cfgs (dats m) 0 (V0 m) [hostOps1] c main_v15 = V m c main_v15 := by
  unfold Pipeline.afterTail₀
  rw [StableHlo.after_of_forall_not_mem (b := Proc.devRef .tc main_v15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v15 (by exact (by decide : ∀ w, Pipeline.arrRef spec0 w ≠ main_v15))]

theorem normals_kept (c : Dev nD) : Pipeline.afterTail₀ cfgs (dats m) 0 (V0 m) [hostOps1] c main_v18 = V m c main_v18 := by
  unfold Pipeline.afterTail₀
  rw [StableHlo.after_of_forall_not_mem (b := Proc.devRef .tc main_v18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v18 (by exact (by decide : ∀ w, Pipeline.arrRef spec0 w ≠ main_v18))]

/-- Result one: the colour array in its (pixel, channel) shape joined with the opacity along the last axis. -/
theorem images_value (c : Dev nD) : Pipeline.afterTail₀ cfgs (dats m) 0 (V0 m) [hostOps1] c main_v34
    = concatenate S8x512x512x4 3
        [⟨S8x512x512x3, shapeCast S8x512x512x3 (colour (V m c (Pipeline.arrRef spec0 1)) (V m c (Pipeline.arrRef spec0 0))) shapeCasts_S8x512x1536_S8x512x512x3⟩,
         ⟨S8x512x512x1, broadcastInDim S8x512x512x1 ![0, 1, 2] bcast_S8x512x512_S8x512x512x1_0_1_2 (opacity (V m c (Pipeline.arrRef spec0 2)))⟩]
        concatenates_S8x512x512x3_S8x512x512x1_S8x512x512x4_d3 := by
  unfold Pipeline.afterTail₀
  show StableHlo.after hostOps1 _ (Proc.devRef .tc main_v34) = _
  after_results
  have h3 : Pipeline.withArrays (cfgs 0).spec c (V0 m c) (fun w => (dats m 0 c).arrAt w (cfgs 0).N) (Proc.devRef .tc main_v31_0)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.devRef .tc main_v31_1)
      = (dats m 0 c).arrAt 4 cfg0.N := Pipeline.withArrays_arr spec0 launch0.win.arr_inj c _ _ 4
  rw [h3, h4, colour_array, opacity_array]
  rfl

/-! ## The run -/

/-- Every weakly fair execution of the idealized kernel terminates; result one ends as the lines after the region
    leave it, results two and three as the region found them, and the arguments as launched. -/
theorem run : θ_run defs (onTc (τ := τ) (main (F := F))) ⟨m, fun _ => 0, ρ⟩ fun r => ∀ c : Dev nD,
      r.2.mem ((c.tc : Thread nD τ).loc main_v34) = Pipeline.afterTail₀ cfgs (dats m) 0 (V0 m) [hostOps1] c main_v34
      ∧ r.2.mem ((c.tc : Thread nD τ).loc main_v15) = V m c main_v15
      ∧ r.2.mem ((c.tc : Thread nD τ).loc main_v18) = V m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).2 main_v34 (Pipeline.mem_restRefs_of main_v34 (by decide) (by decide)),
      ((h c).2 main_v15 (Pipeline.mem_restRefs_of main_v15 (by decide) (by decide))).trans (coords_kept m c),
      ((h c).2 main_v18 (Pipeline.mem_restRefs_of main_v18 (by decide) (by decide))).trans (normals_kept m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Blend

end
-- ==== Proof.Entries.lean ====
/-
  Facts about ONE entry of the arrays this certificate compares: words of one bit and of thirty-two
  bits, and the two extended reals 0 and 1.

  * A background flag is a one-bit word `b`.  The kernel receives it widened to 32 bits and tests the
    widened word against zero; that test gives `b` back (`widened_ne_zero`).
  * A pixel's face number `x` is a signed 32-bit word.  Both programs first replace the padding value
    -1 by 0.  The reference then adds the table's length to a negative number (negative numbers count
    rows from the end).  When -1 is the only negative value `x` takes, the number left after the
    replacement is never negative, so nothing is added (`masked_index_not_negative`).
  * The opacity of a pixel: the kernel chooses 0 for background and 1 otherwise; the reference converts
    the complement of the flag to a float.  Both are the same extended real (`alpha_entry`).
-/
import Idealize.ShloMosaic.PureOps.Ideal
import Idealize.ShloMosaic.PureOps.Ideal.Laws
import Idealize.ShloMosaic.Lib.Affine
import Idealize.ShloMosaic.Lib.IdealHost

noncomputable section

namespace Cert.Blend

open Idealize.ShloMosaic

/-- A one-bit word is 0 or 1. -/
theorem bit_cases (b : BitVec 1) : b = 0#1 ∨ b = 1#1 := by revert b; decide

/-- Widening a one-bit word to 32 bits and asking whether the result differs from zero returns the word. -/
theorem widened_ne_zero (b : BitVec 1) : IntOp.cmpi .ne (b.setWidth 32) 0#32 = b := by revert b; decide

/-- If a face number is at least -1, then after -1 has been replaced by 0 it is not negative. -/
theorem masked_index_not_negative (x : BitVec 32) (h : (4294967295#32 : BitVec 32).toInt ≤ x.toInt) :
    IntOp.cmpi .slt (Scalar.select (IntOp.cmpi .eq x 4294967295#32) 0#32 x) 0#32 = 0#1 := by
  have hm1 : (4294967295#32 : BitVec 32).toInt = -1 := by decide
  by_cases hx : x = 4294967295#32
  · subst hx; decide
  · have hne : ¬ IntOp.cmpi .eq x 4294967295#32 = 1#1 := fun e => hx (IntOp.cmpi_eq.1 e)
    have hsel : Scalar.select (IntOp.cmpi .eq x 4294967295#32) (0#32) x = x := by
      unfold Scalar.select; exact if_neg hne
    rw [hsel]
    have hnn : ¬ IntOp.cmpi .slt x 0#32 = 1#1 := by
      rw [IntOp.cmpi_slt]
      have h0 : (0#32 : BitVec 32).toInt = 0 := by decide
      have hx' : x.toInt ≠ -1 := fun e => hx (BitVec.eq_of_toInt_eq (by rw [e, hm1]))
      rw [h0]; rw [hm1] at h; omega
    rcases bit_cases (IntOp.cmpi .slt x 0#32) with e | e
    · exact e
    · exact absurd e hnn

/-- The opacity of one pixel on the extended reals: choosing 0 where the widened flag is set and 1 elsewhere is the
    complement of the flag converted to a float. -/
theorem alpha_entry (b : BitVec 1) :
    Scalar.select (IntOp.cmpi .ne (b.setWidth 32) 0#32) (FloatOps.ofBits (F := Ideal) .f32 0x00000000#32)
        (FloatOps.ofBits (F := Ideal) .f32 0x3F800000#32)
      = FloatOps.uitofp (F := Ideal) .f32 (~~~b) := by
  rw [widened_ne_zero]
  rcases bit_cases b with rfl | rfl
  · refine (if_neg (by decide : ¬ (0#1 : BitVec 1) = 1)).trans ?_
    show Ideal.ofBits .f32 0x3F800000#32 = (((~~~(0#1 : BitVec 1)).toNat : ℝ) : EReal)
    rw [Ideal.ofBits_one_f32, show (~~~(0#1 : BitVec 1)).toNat = 1 by decide]
    norm_num
  · refine (if_pos (by decide : (1#1 : BitVec 1) = 1)).trans ?_
    show Ideal.ofBits .f32 0x00000000#32 = (((~~~(1#1 : BitVec 1)).toNat : ℝ) : EReal)
    rw [Ideal.ofBits_zero_f32, show (~~~(1#1 : BitVec 1)).toNat = 0 by decide]
    norm_num

end Cert.Blend

end
-- ==== Proof.Bridge.lean ====
/-
  From the kernel's spelling of its three results to the reference's.

  * COLOUR.  The kernel flattens the (pixel, channel) arrays to rows of 1536, chooses entry by entry on the flat
    layout (testing the WIDENED flag against zero) and gives the result its (pixel, channel) shape back.  Flattening
    and its inverse are mutually inverse re-indexings and the choice is entrywise, so the round trip is the same
    choice made on the (pixel, channel) layout, with the one-bit flag itself as the condition.
  * OPACITY.  0 where the widened flag is set and 1 elsewhere is the complement of the flag converted to a float.
  * GATHERED ROWS.  The reference counts a negative row number from the table's end: it uses
    "number + 200000 if number < 0 else number".  After the padding value -1 has been replaced by 0, and when -1 is
    the only negative face number (the precondition), no number is negative, so this is the number itself: both
    programs hand the same row numbers to the same gather.
-/
import proofs.«408880_j81793357185200_4_alg».proof.Proof.KernelRun
import proofs.«408880_j81793357185200_4_alg».proof.Proof.Entries

set_option maxRecDepth 16384

noncomputable section

namespace Cert.Blend

open Idealize.ShloMosaic

variable {F : FTy → Type} [FloatOps F]

/-- Flatten, choose entrywise on the widened flag, unflatten: the choice on the original layout by the flag itself. -/
theorem choose_unflatten {s t : Shape} (h : t.ShapeCasts s) (h' : s.ShapeCasts t) (b : IVec t 1) (hw : 1 < 32)
    (one : F .f32) (x : FVec F t .f32) :
    shapeCast t (fun i : s.Idx => Scalar.select (IntOp.cmpi .ne (shapeCast s (extui 32 b hw) h i) 0#32) one (shapeCast s x h i)) h'
      = select b (fun _ => one) x := by
  have hflat : (fun i : s.Idx => Scalar.select (IntOp.cmpi .ne (shapeCast s (extui 32 b hw) h i) 0#32) one (shapeCast s x h i))
      = shapeCast s (select b (fun _ => one) x) h := by
    funext i
    show Scalar.select (IntOp.cmpi .ne ((b (Shape.reshapeEquiv h i)).setWidth 32) 0#32) one (x (Shape.reshapeEquiv h i))
      = Scalar.select (b (Shape.reshapeEquiv h i)) one (x (Shape.reshapeEquiv h i))
    rw [widened_ne_zero]
  rw [hflat, shapeCast_shapeCast]

/-- 0 where the widened flag is set and 1 elsewhere, on the extended reals: the complement of the flag as a float. -/
theorem opacity_is_complement {s : Shape} (b : IVec s 1) (hw : 1 < 32) :
    (fun i => Scalar.select (IntOp.cmpi .ne (extui 32 b hw i) 0#32) (FloatOps.ofBits (F := Ideal) .f32 0x00000000#32)
        (FloatOps.ofBits (F := Ideal) .f32 0x3F800000#32))
      = uitofp (F := Ideal) .f32 (noti b) :=
  funext fun i => alpha_entry (b i)

end Cert.Blend

namespace Cert.KernelIdeal.Blend

open Cert.KernelIdeal Cert.KernelIdeal.Gen Idealize.ShloMosaic Idealize.ShloMosaic.TcCoe Idealize.SL.Sem
open Idealize.ShloMosaic.Pipeline (Dat)

variable {F : FTy → Type} [FloatOps F]

/-! ## Result one -/

/-- The kernel's colour, back in its (pixel, channel) shape: white on background pixels, the first texel elsewhere. -/
theorem colour_value (pixFace : IVec S8x512x512x8 32) (texels : FVec F S8x512x512x8x3 .f32) :
    shapeCast S8x512x512x3
        (colour (shapeCast S8x512x1536 (extui 32 (isBackground3 pixFace) natLt_1_32) shapeCasts_S8x512x512x3_S8x512x1536)
          (shapeCast S8x512x1536 (firstTexel texels) shapeCasts_S8x512x512x3_S8x512x1536))
        shapeCasts_S8x512x1536_S8x512x512x3
      = select (isBackground3 pixFace) (fun _ => FloatOps.ofBits .f32 0x3F800000#32) (firstTexel texels) :=
  Cert.Blend.choose_unflatten _ _ _ _ _ _

/-- The kernel's opacity on the extended reals: the complement of the background flag as a float. -/
theorem opacity_value (pixFace : IVec S8x512x512x8 32) :
    opacity (F := Ideal) (extui 32 (isBackground pixFace) natLt_1_32) = uitofp (F := Ideal) .f32 (noti (isBackground pixFace)) :=
  Cert.Blend.opacity_is_complement _ _

/-- RESULT ONE on the extended reals, as a function of the arguments. -/
theorem images_final (m : (ℓ : Loc nD τ sig) → Buf (Elt Ideal) ℓ) (c : Dev nD) :
    Pipeline.afterTail₀ cfgs (dats m) 0 (V0 m) [hostOps1] c main_v34
      = concatenate S8x512x512x4 3
          [⟨S8x512x512x3, select (isBackground3 (m ((c : Thread nD τ).loc main_arg3))) (fun _ => FloatOps.ofBits (F := Ideal) .f32 0x3F800000#32)
              (firstTexel (m ((c : Thread nD τ).loc main_arg4)))⟩,
           ⟨S8x512x512x1, broadcastInDim S8x512x512x1 ![0, 1, 2] bcast_S8x512x512_S8x512x512x1_0_1_2
              (uitofp (F := Ideal) .f32 (noti (isBackground (m ((c : Thread nD τ).loc main_arg3)))))⟩]
          concatenates_S8x512x512x3_S8x512x512x1_S8x512x512x4_d3 := by
  rw [images_value, flag3_value, texel_value, flag1_value, colour_value, opacity_value]

/-! ## Results two and three -/

/-- A row number counted from the table's end when negative (the table has 200000 rows). -/
def fromEnd (idx : IVec S8x512x512x8 32) : IVec S8x512x512x8 32 :=
  select (cmpi .slt idx (broadcastInDim S8x512x512x8 ![] bcast_S_S8x512x512x8 (constantI S_ 32 0#32)))
    (addi idx (broadcastInDim S8x512x512x8 ![] bcast_S_S8x512x512x8 (constantI S_ 32 200000#32))) idx

/-- The masked rows of a table at GIVEN row numbers (`maskedRows` is this at `safeIndex`). -/
def maskedRowsAt (table : FVec F S200000x3 .f32) (pixFace idx : IVec S8x512x512x8 32) : FVec F S8x512x512x8x3 .f32 :=
  select
    (broadcastInDim S8x512x512x8x3 ![0, 1, 2, 3, 4] bcast_S8x512x512x8x1_S8x512x512x8x3_0_1_2_3_4
      (broadcastInDim S8x512x512x8x1 ![0, 1, 2, 3] bcast_S8x512x512x8_S8x512x512x8x1_0_1_2_3
        (cmpi .eq pixFace (broadcastInDim S8x512x512x8 ![] bcast_S_S8x512x512x8 (constantI S_ 32 4294967295#32)))))
    (broadcastInDim S8x512x512x8x3 ![] bcast_S_S8x512x512x8x3 (constant (F := F) S_ .f32 0x00000000#32))
    (Host.gather gather_S200000x3_S8x512x512x8x1_S8x512x512x8x3_4_0_n_n_0_4_13 table
      (broadcastInDim S8x512x512x8x1 ![0, 1, 2, 3] bcast_S8x512x512x8_S8x512x512x8x1_0_1_2_3 idx))

/-- When -1 is the only negative face number, counting from the end changes no safe row number. -/
theorem fromEnd_safeIndex (pixFace : IVec S8x512x512x8 32)
    (hge : ∀ i, (4294967295#32 : BitVec 32).toInt ≤ (pixFace i).toInt) : fromEnd (safeIndex pixFace) = safeIndex pixFace := by
  funext i
  show Scalar.select (IntOp.cmpi .slt (Scalar.select (IntOp.cmpi .eq (pixFace i) 4294967295#32) 0#32 (pixFace i)) 0#32) _ _ = _
  rw [Cert.Blend.masked_index_not_negative _ (hge i)]
  exact if_neg (by decide)

/-- So the kernel's masked rows are the masked rows at the reference's end-relative row numbers. -/
theorem maskedRows_fromEnd (table : FVec F S200000x3 .f32) (pixFace : IVec S8x512x512x8 32)
    (hge : ∀ i, (4294967295#32 : BitVec 32).toInt ≤ (pixFace i).toInt) :
    maskedRows table pixFace = maskedRowsAt table pixFace (fromEnd (safeIndex pixFace)) := by
  rw [fromEnd_safeIndex pixFace hge]; rfl

end Cert.KernelIdeal.Blend

end
-- ==== Proof.lean ====
/-
  The certificate's claim: a per-pixel blend kernel (colour and opacity of the nearest face slot) with host-side
  gathers of face centroids and face normals, against its plain reference, over the extended reals.

  Added precondition: every per-pixel face number is at least -1 (-1 is the padding value; the reference says
  the gather is "masked at -1" and calls the number with -1 replaced by 0 a "safe gather index").  It is needed:
  for a face number in -199999 … -2 the reference counts the row from the table's end while the kernel's gather
  clamps the number to row 0.

  * The three frames: the kernel's two programs have their whole frame proof generated; the reference is a host
    program, and its frame is its generated run with the results dropped.
  * The idealization rewrote nothing, so its claim is `True`.
  * The equivalence.  Result one: the kernel chooses, on a flattened layout and on the widened flag, between white and
    the first texel, and between opacity 0 and 1 — entry by entry the reference's choice and the reference's
    "complement of the flag as a float" (Proof/RegionArrays, Proof/KernelRun, Proof/Bridge).  Results two and three:
    both programs gather rows of the same table; the reference's row numbers count from the table's end when
    negative, which under the precondition never happens after -1 has been replaced by 0 (Proof/Bridge,
    Proof/FaceRange).  No law of arithmetic on the extended reals is used: the float inputs need not be finite for this
    part.
-/
import proofs.«408880_j81793357185200_4_alg».proof.Defs
import proofs.«408880_j81793357185200_4_alg».proof.Proof.Gen.Kernel
import proofs.«408880_j81793357185200_4_alg».proof.Proof.Gen.Kernel.Skeleton
import proofs.«408880_j81793357185200_4_alg».proof.Proof.Gen.Kernel.Launch
import proofs.«408880_j81793357185200_4_alg».proof.Proof.Gen.Kernel.Points
import proofs.«408880_j81793357185200_4_alg».proof.Proof.Gen.Kernel.Frame
import proofs.«408880_j81793357185200_4_alg».proof.Proof.Gen.KernelIdeal
import proofs.«408880_j81793357185200_4_alg».proof.Proof.Gen.KernelIdeal.Skeleton
import proofs.«408880_j81793357185200_4_alg».proof.Proof.Gen.KernelIdeal.Launch
import proofs.«408880_j81793357185200_4_alg».proof.Proof.Gen.KernelIdeal.Points
import proofs.«408880_j81793357185200_4_alg».proof.Proof.Gen.KernelIdeal.Frame
import proofs.«408880_j81793357185200_4_alg».proof.Proof.Gen.ReferenceIdeal
import proofs.«408880_j81793357185200_4_alg».proof.Proof.Gen.Pre_finite_inputs
import proofs.«408880_j81793357185200_4_alg».proof.Proof.Gen.ReferenceIdeal.Run
import proofs.«408880_j81793357185200_4_alg».proof.Proof.FaceRange
import proofs.«408880_j81793357185200_4_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run, the results forgotten. -/
theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

set_option maxHeartbeats 4000000 in
/-- The two idealized programs end with equal results.  The witnesses are the reference's own terms; the kernel's run
    ends at them: result one by the entrywise reading of the blend, results two and three because under the
    precondition the reference's end-relative row numbers are the kernel's. -/
theorem algebraic : Cert.algebraic_KernelIdeal_ReferenceIdeal := by
  intro m ρ m' ρ' hpre hagree
  refine ⟨_, _, _, ?_, Cert.ReferenceIdeal.Value.run (F := Ideal) m' ρ'⟩
  refine (θ_run Cert.KernelIdeal.defs _ _).mono (fun r h c => ?_) (Cert.KernelIdeal.Blend.run (F := Ideal) m ρ)
  obtain ⟨h34, h15, h18, ha0, ha1, ha2, ha3, ha4⟩ := h c
  obtain ⟨g0, g1, g2, g3, g4⟩ := hagree c
  have hge : ∀ i, (4294967295#32 : BitVec 32).toInt ≤
      ((m ((c.tc : Thread Cert.KernelIdeal.nD Cert.KernelIdeal.τ).loc Cert.KernelIdeal.main_arg3)) i).toInt :=
    Cert.Blend.face_ge_neg_one _ _ _ _ _ (hpre c)
  refine ⟨h34.trans ?_, h15.trans ?_, h18.trans ?_, ha0, ha1, ha2, ha3, ha4⟩
  · rw [g3, g4, Cert.KernelIdeal.Blend.images_final]
    rfl
  · rw [g0, g1, g3, Cert.KernelIdeal.Blend.coords_value, Cert.KernelIdeal.Blend.maskedRows_fromEnd _ _ hge]
    rfl
  · rw [g2, g3, Cert.KernelIdeal.Blend.normals_value, Cert.KernelIdeal.Blend.maskedRows_fromEnd _ _ hge]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
